-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000x64 : Shape := ⟨2, ![1000, 64]⟩
abbrev S64 : Shape := ⟨1, ![64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S64 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S100000x64 .f32) (main_arg2 : FVec F S1000x64 .f32) (main_arg3 : FVec F S1000x64 .f32) (main_arg4 : FVec F S64 .f32) (main_arg5 : FVec F S64 .f32) (main_arg6 : FVec F S64 .f32) (main_arg7 : FVec F S64 .f32) (main_arg8 : IVec S1000000 32) (main_arg9 : IVec S1000000 32) (main_arg10 : IVec S1000000 32) (main_arg11 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S1000x64 .f32 := Host.absf main_arg3
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg4 main_arg5 main_arg6 main_arg7 main_v13 main_v16
-- ==== Kernel.lean ====
abbrev S100000x64 : Shape := ⟨2, ![100000, 64]⟩
abbrev S1000x64 : Shape := ⟨2, ![1000, 64]⟩
abbrev S64 : Shape := ⟨1, ![64]⟩
abbrev S1000000 : Shape := ⟨1, ![1000000]⟩
abbrev S1x64 : Shape := ⟨2, ![1, 64]⟩
abbrev S10000x64 : Shape := ⟨2, ![10000, 64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1000 : Shape := ⟨1, ![1000]⟩
abbrev S1000x1 : Shape := ⟨2, ![1000, 1]⟩
abbrev S101000x64 : Shape := ⟨2, ![101000, 64]⟩

abbrev nBuf : Space → Nat
  | .hbm => 123
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000x64, .f32⟩
  | .hbm, ⟨3, _⟩ => ⟨S1000x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1x64, .f32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S1x64, .f32⟩
  | .hbm, ⟨17, _⟩ => ⟨S1000x64, .f32⟩
  | .hbm, ⟨18, _⟩ => ⟨S1x64, .f32⟩
  | .hbm, ⟨19, _⟩ => ⟨S1000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .f32⟩
  | .hbm, ⟨56, _⟩ => ⟨S_, .f32⟩
  | .hbm, ⟨57, _⟩ => ⟨S100000x64, .f32⟩
  | .hbm, ⟨58, _⟩ => ⟨S1000000x1, .i32⟩
  | .hbm, ⟨59, _⟩ => ⟨S100000x64, .f32⟩
  | .hbm, ⟨60, _⟩ => ⟨S_, .f32⟩
  | .hbm, ⟨61, _⟩ => ⟨S1000000, .f32⟩
  | .hbm, ⟨62, _⟩ => ⟨S_, .f32⟩
  | .hbm, ⟨63, _⟩ => ⟨S100000, .f32⟩
  | .hbm, ⟨64, _⟩ => ⟨S1000000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S1000000x1, .i32⟩
  | .hbm, ⟨75, _⟩ => ⟨S100000x64, .f32⟩
  | .hbm, ⟨76, _⟩ => ⟨S_, .f32⟩
  | .hbm, ⟨77, _⟩ => ⟨S1000000, .f32⟩
  | .hbm, ⟨78, _⟩ => ⟨S_, .f32⟩
  | .hbm, ⟨79, _⟩ => ⟨S100000, .f32⟩
  | .hbm, ⟨80, _⟩ => ⟨S1000000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S1000x64, .f32⟩
  | .hbm, ⟨91, _⟩ => ⟨S1000000x1, .i32⟩
  | .hbm, ⟨92, _⟩ => ⟨S1000x64, .f32⟩
  | .hbm, ⟨93, _⟩ => ⟨S_, .f32⟩
  | .hbm, ⟨94, _⟩ => ⟨S1000000, .f32⟩
  | .hbm, ⟨95, _⟩ => ⟨S_, .f32⟩
  | .hbm, ⟨96, _⟩ => ⟨S1000, .f32⟩
  | .hbm, ⟨97, _⟩ => ⟨S1000000x1, .i32⟩
  | .hbm, ⟨98, _⟩ => ⟨S1000, .f32⟩
  | .hbm, ⟨99, _⟩ => ⟨S_, .f32⟩
  | .hbm, ⟨100, _⟩ => ⟨S1000, .f32⟩
  | .hbm, ⟨101, _⟩ => ⟨S1000, .f32⟩
  | .hbm, ⟨102, _⟩ => ⟨S1000x1, .f32⟩
  | .hbm, ⟨103, _⟩ => ⟨S1000x64, .f32⟩
  | .hbm, ⟨104, _⟩ => ⟨S1000x64, .f32⟩
  | .hbm, ⟨105, _⟩ => ⟨S_, .f32⟩
  | .hbm, ⟨106, _⟩ => ⟨S1000x64, .f32⟩
  | .hbm, ⟨107, _⟩ => ⟨S1000000x1, .i32⟩
  | .hbm, ⟨108, _⟩ => ⟨S1000x64, .f32⟩
  | .hbm, ⟨109, _⟩ => ⟨S_, .f32⟩
  | .hbm, ⟨110, _⟩ => ⟨S1000000, .f32⟩
  | .hbm, ⟨111, _⟩ => ⟨S_, .f32⟩
  | .hbm, ⟨112, _⟩ => ⟨S1000, .f32⟩
  | .hbm, ⟨113, _⟩ => ⟨S1000000x1, .i32⟩
  | .hbm, ⟨114, _⟩ => ⟨S1000, .f32⟩
  | .hbm, ⟨115, _⟩ => ⟨S_, .f32⟩
  | .hbm, ⟨116, _⟩ => ⟨S1000, .f32⟩
  | .hbm, ⟨117, _⟩ => ⟨S1000, .f32⟩
  | .hbm, ⟨118, _⟩ => ⟨S1000x1, .f32⟩
  | .hbm, ⟨119, _⟩ => ⟨S1000x64, .f32⟩
  | .hbm, ⟨120, _⟩ => ⟨S1000x64, .f32⟩
  | .hbm, ⟨121, _⟩ => ⟨S1000x64, .f32⟩
  | .hbm, ⟨122, _⟩ => ⟨S101000x64, .f32⟩
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1000x64, .f32⟩
  | .local _ .vmem, ⟨11, _⟩ => ⟨S1x64, .f32⟩
  | .local _ .vmem, ⟨12, _⟩ => ⟨S1000x64, .f32⟩
  | .local _ .vmem, ⟨13, _⟩ => ⟨S1000x64, .f32⟩
  | .local _ .vmem, ⟨14, _⟩ => ⟨S1x64, .f32⟩
  | .local _ .vmem, ⟨15, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_19 : Ref sig .tc := ⟨.hbm, 109, rfl⟩
abbrev main_v76 : Ref sig .tc := ⟨.hbm, 110, rfl⟩
abbrev main_cst_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_21 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1000x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S1000x64_S1000x64_0_0 : ∀ a, (![0, 0] : Fin 2 → Nat) a + S1000x64.size a ≤ S1000x64.size a
  h_S1000x64 : 0 < S1000x64.numel
  broadcasts_S1x64_S1000x64 : S1x64.Broadcasts S1000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  concatenates_S100000x64_S1000x64_S101000x64_d0 : Shape.Concatenates [S100000x64, S1000x64] S101000x64 0
  gather_S1000x64_S1000000x1_S1000000x64_1_0_n_n_0_1_164_wf : GatherDims.WF S1000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  scatter_S1000x64_S1000000x1_S1000000x64_1_0_0_1_wf : ScatterDims.WF S1000x64 S1000000x1 S1000000x64 [1] [0] [0] 1
  scatter_S1000_S1000000x1_S1000000_n_0_0_1_wf : ScatterDims.WF S1000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S1000x64.size a
  hwx2_0 : ∀ i : grid2.Coords, EltTy.bits .f32 = 32 ∨ (Rect.block (s := S1000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S1000x64.size a
  hwx2_2 : ∀ i : grid2.Coords, EltTy.bits .f32 = 32 ∨ (Rect.block (s := S1000x64) S1000x64.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S1000x64.size a
  hwx3_0 : ∀ i : grid3.Coords, EltTy.bits .f32 = 32 ∨ (Rect.block (s := S1000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S1000x64.size a
  hwx3_2 : ∀ i : grid3.Coords, EltTy.bits .f32 = 32 ∨ (Rect.block (s := S1000x64) S1000x64.size (cc3_transform_2 i) (hinb3_2 i)).WholeWords (EltTy.packing .f32)

variable [Facts₀]

def gather_S1000x64_S1000000x1_S1000000x64_1_0_n_n_0_1_164 : GatherDims S1000x64 S1000000x1 S1000000x64 where
  offsetDims := [1]
  collapsedSliceDims := [0]
  operandBatchingDims := []
  startIndicesBatchingDims := []
  startIndexMap := [0]
  indexVectorDim := 1
  sliceSizes := ![1, 64]
  wf := gather_S1000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S1000x64_S1000000x1_S1000000x64_1_0_0_1 : ScatterDims S1000x64 S1000000x1 S1000000x64 where
  updateWindowDims := [1]
  insertedWindowDims := [0]
  scatterDimsToOperandDims := [0]
  indexVectorDim := 1
  wf := scatter_S1000x64_S1000000x1_S1000000x64_1_0_0_1_wf
def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1000x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1000x64.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S1000x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1000x64.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S1000x64 : Shape := ⟨2, ![1000, 64]⟩
abbrev S64 : Shape := ⟨1, ![64]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000 : Shape := ⟨1, ![100000]⟩
abbrev S100000x1 : Shape := ⟨2, ![100000, 1]⟩
abbrev S1000 : Shape := ⟨1, ![1000]⟩
abbrev S1000x1 : Shape := ⟨2, ![1000, 1]⟩
abbrev S101000x64 : Shape := ⟨2, ![101000, 64]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S100000x64, .f32⟩
  | 2 => ⟨S1000x64, .f32⟩
  | 3 => ⟨S1000x64, .f32⟩
  | 4 => ⟨S64, .f32⟩
  | 5 => ⟨S64, .f32⟩
  | 6 => ⟨S64, .f32⟩
  | 7 => ⟨S64, .f32⟩
  | 8 => ⟨S1000000, .i32⟩
  | 9 => ⟨S1000000, .i32⟩
  | 10 => ⟨S1000000, .i32⟩
  | 11 => ⟨S1000000, .i32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x64, .f32⟩
  | 21 => ⟨S1x64, .f32⟩
  | 22 => ⟨S1000000x64, .f32⟩
  | 23 => ⟨S1000000x64, .f32⟩
  | 24 => ⟨S_, .f32⟩
  | 25 => ⟨S1000000x64, .f32⟩
  | 26 => ⟨S1000000x64, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .f32⟩
  | 36 => ⟨S1x64, .f32⟩
  | 37 => ⟨S1000000x64, .f32⟩
  | 38 => ⟨S1000000x64, .f32⟩
  | 39 => ⟨S_, .f32⟩
  | 40 => ⟨S1000000x64, .f32⟩
  | 41 => ⟨S1000000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S1x64, .f32⟩
  | 52 => ⟨S1000000x64, .f32⟩
  | 53 => ⟨S1000000x64, .f32⟩
  | 54 => ⟨S_, .f32⟩
  | 55 => ⟨S1000000x64, .f32⟩
  | 56 => ⟨S1000000x64, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S1x64, .f32⟩
  | 67 => ⟨S1000000x64, .f32⟩
  | 68 => ⟨S1000000x64, .f32⟩
  | 69 => ⟨S_, .f32⟩
  | 70 => ⟨S1000000x64, .f32⟩
  | 71 => ⟨S1000000x64, .f32⟩
  | 72 => ⟨S_, .f32⟩
  | 73 => ⟨S100000x64, .f32⟩
  | 74 => ⟨S1000000x1, .i32⟩
  | 75 => ⟨S100000x64, .f32⟩
  | 76 => ⟨S_, .f32⟩
  | 77 => ⟨S1000000, .f32⟩
  | 78 => ⟨S_, .f32⟩
  | 79 => ⟨S100000, .f32⟩
  | 80 => ⟨S1000000x1, .i32⟩
  | 81 => ⟨S100000, .f32⟩
  | 82 => ⟨S_, .f32⟩
  | 83 => ⟨S100000, .f32⟩
  | 84 => ⟨S100000, .f32⟩
  | 85 => ⟨S100000x1, .f32⟩
  | 86 => ⟨S100000x64, .f32⟩
  | 87 => ⟨S100000x64, .f32⟩
  | 88 => ⟨S_, .f32⟩
  | 89 => ⟨S100000x64, .f32⟩
  | 90 => ⟨S1000000x1, .i32⟩
  | 91 => ⟨S100000x64, .f32⟩
  | 92 => ⟨S_, .f32⟩
  | 93 => ⟨S1000000, .f32⟩
  | 94 => ⟨S_, .f32⟩
  | 95 => ⟨S100000, .f32⟩
  | 96 => ⟨S1000000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x64, .f32⟩
  | 103 => ⟨S100000x64, .f32⟩
  | 104 => ⟨S100000x64, .f32⟩
  | 105 => ⟨S_, .f32⟩
  | 106 => ⟨S1000x64, .f32⟩
  | 107 => ⟨S1000000x1, .i32⟩
  | 108 => ⟨S1000x64, .f32⟩
  | 109 => ⟨S_, .f32⟩
  | 110 => ⟨S1000000, .f32⟩
  | 111 => ⟨S_, .f32⟩
  | 112 => ⟨S1000, .f32⟩
  | 113 => ⟨S1000000x1, .i32⟩
  | 114 => ⟨S1000, .f32⟩
  | 115 => ⟨S_, .f32⟩
  | 116 => ⟨S1000, .f32⟩
  | 117 => ⟨S1000, .f32⟩
  | 118 => ⟨S1000x1, .f32⟩
  | 119 => ⟨S1000x64, .f32⟩
  | 120 => ⟨S1000x64, .f32⟩
  | 121 => ⟨S_, .f32⟩
  | 122 => ⟨S1000x64, .f32⟩
  | 123 => ⟨S1000000x1, .i32⟩
  | 124 => ⟨S1000x64, .f32⟩
  | 125 => ⟨S_, .f32⟩
  | 126 => ⟨S1000000, .f32⟩
  | 127 => ⟨S_, .f32⟩
  | _ => ⟨S100000x64, .f32⟩

abbrev hbmTy0_1 (i : Nat) : BufTy := match i % 128 with
  | 0 => ⟨S1000, .f32⟩
  | 1 => ⟨S1000000x1, .i32⟩
  | 2 => ⟨S1000, .f32⟩
  | 3 => ⟨S_, .f32⟩
  | 4 => ⟨S1000, .f32⟩
  | 5 => ⟨S1000, .f32⟩
  | 6 => ⟨S1000x1, .f32⟩
  | 7 => ⟨S1000x64, .f32⟩
  | 8 => ⟨S1000x64, .f32⟩
  | 9 => ⟨S1000x64, .f32⟩
  | 10 => ⟨S101000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_cst : Ref sig .tc := ⟨.hbm, 39, rfl⟩
abbrev main_call1_v0 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call3_cst : Ref sig .tc := ⟨.hbm, 69, rfl⟩
abbrev main_call3_v0 : Ref sig .tc := ⟨.hbm, 70, rfl⟩
abbrev main_v43 : Ref sig .tc := ⟨.hbm, 71, rfl⟩
abbrev main_cst : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_cst_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_17 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_cst_20 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_21 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  concatenates_S100000x64_S1000x64_S101000x64_d0 : Shape.Concatenates [S100000x64, S1000x64] S101000x64 0
  gather_S100000x64_S1000000x1_S1000000x64_1_0_n_n_0_1_164_wf : GatherDims.WF S100000x64 S1000000x1 S1000000x64 [1] [0] [] [0] [] 1 ![1, 64]
  gather_S1000x64_S1000000x1_S1000000x64_1_0_n_n_0_1_164_wf : GatherDims.WF S1000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  scatter_S1000x64_S1000000x1_S1000000x64_1_0_0_1_wf : ScatterDims.WF S1000x64 S1000000x1 S1000000x64 [1] [0] [0] 1
  scatter_S1000_S1000000x1_S1000000_n_0_0_1_wf : ScatterDims.WF S1000 S1000000x1 S1000000 [] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S1000x64_S1000000x1_S1000000x64_1_0_n_n_0_1_164 : GatherDims S1000x64 S1000000x1 S1000000x64 where
  offsetDims := [1]
  collapsedSliceDims := [0]
  operandBatchingDims := []
  startIndicesBatchingDims := []
  startIndexMap := [0]
  indexVectorDim := 1
  sliceSizes := ![1, 64]
  wf := gather_S1000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S1000x64_S1000000x1_S1000000x64_1_0_0_1 : ScatterDims S1000x64 S1000000x1 S1000000x64 where
  updateWindowDims := [1]
  insertedWindowDims := [0]
  scatterDimsToOperandDims := [0]
  indexVectorDim := 1
  wf := scatter_S1000x64_S1000000x1_S1000000x64_1_0_0_1_wf
def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf

class Facts : Prop extends Facts₀ where

variable [Facts]
-- ==== Proof.LibGatherRows.lean ====
/-
  A row-take `table[idx]` of a rank-2 table (a `stablehlo.gather` whose start index names the row, the column axis an
  offset axis taken whole) reads, at result position (p, q), the table's entry (row(p), q): the column is the result's
  own. So any map applied entry by entry that looks only at the entry and its column commutes with the take; in
  particular adding a bias row and clamping below at zero.
-/
import Idealize.ShloMosaic.PureOps.Ideal
import Idealize.ShloMosaic.Lib.ValueIdx
import Idealize.ShloMosaic.Lib.Pipeline.Value

noncomputable section

namespace GatherRows

open Idealize.ShloMosaic Idealize.ShloMosaic.ValueIdx

/-- The one entry of a one-entry list, at whatever position is in range. -/
private theorem getElem_singleton_of_eq {α : Type} (l : List α) (a : α) (k : Nat) (h : k < l.length) (hl : l = [a]) :
    l[k] = a := by
  subst hl
  have hk : k = 0 := by simpa using h
  subst hk
  rfl

/-- THE COLUMN OF A ROW-TAKE. For a gather of a table [N, C] at a column [n, 1] of start indices into [n, C] whose
    dimension numbers say: the column axis is the one offset axis, the row axis is collapsed and is the start index's only
    component, nothing batches — the operand index of result position `j` has `j`'s own column. -/
theorem operandIdx_col {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (j : (⟨2, ![n, C]⟩ : Shape).Idx) (idx : IVec ⟨2, ![n, 1]⟩ w) :
    ((d.operandIdx j idx) 1).val = (j 1).val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  have h1 : d.start j idx 1 = 0 := by unfold GatherDims.start; rw [dif_neg hm]
  have h3 : d.offCoord j 1 = (j 1).val := by
    unfold GatherDims.offCoord
    rw [dif_pos hk]
    exact congrArg (fun a => (j a).val) (getElem_singleton_of_eq _ _ _ _ hoff)
  show d.start j idx 1 + d.batchCoord j 1 + d.offCoord j 1 = (j 1).val
  rw [h1, GatherDims.batchCoord_eq_zero _ _ _ hb, h3, Nat.add_zero, Nat.zero_add]

/-- A row-take commutes with a map of each entry that looks at the entry and its column only. -/
theorem gather_colwise {α β : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (g : Fin C → α → β) (x : (⟨2, ![N, C]⟩ : Shape).Idx → α) (idx : IVec ⟨2, ![n, 1]⟩ w) :
    Host.gather d (fun i => g ⟨(i 1).val, idx2_lt1 i⟩ (x i)) idx
      = fun j => g ⟨(j 1).val, idx2_lt1 j⟩ (Host.gather d x idx j) := by
  funext j
  show g ⟨((d.operandIdx j idx) 1).val, _⟩ (x (d.operandIdx j idx)) = g ⟨(j 1).val, _⟩ (x (d.operandIdx j idx))
  exact congrArg (fun q => g q (x (d.operandIdx j idx))) (Fin.ext (operandIdx_col d hoff hcoll hob hsim j idx))

/-- A table with a bias row added to every row and every entry clamped below at zero. -/
def biasRelu {N : Nat} (x : FVec Ideal ⟨2, ![N, 64]⟩ .f32) (b : FVec Ideal ⟨2, ![1, 64]⟩ .f32) : FVec Ideal ⟨2, ![N, 64]⟩ .f32 :=
  fun i => max (x i + b (ix2 (0 : Fin 1) (⟨(i 1).val, idx2_lt1 i⟩ : Fin 64))) (Ideal.ofBits .f32 0x00000000#32)

/-- TAKING ROWS OF THE BIASED, CLAMPED TABLE is biasing and clamping the taken rows: the bias is the rank-1 vector `b`,
    laid as a row [1, 64] by a shape cast on the table's side and by two broadcasts ([64] → [1, 64] → [n, 64]) on the
    taken rows' side; the zero is the splat constant. -/
theorem gather_biasRelu {N n w : Nat} (d : GatherDims ⟨2, ![N, 64]⟩ ⟨2, ![n, 1]⟩ ⟨2, ![n, 64]⟩)
    (hoff : d.offsetDims = [1]) (hcoll : d.collapsedSliceDims = [0]) (hob : d.operandBatchingDims = [])
    (hsim : d.startIndexMap = [0])
    (x : FVec Ideal ⟨2, ![N, 64]⟩ .f32) (b : FVec Ideal ⟨1, ![64]⟩ .f32) (idx : IVec ⟨2, ![n, 1]⟩ w)
    (hc : (⟨1, ![64]⟩ : Shape).ShapeCasts ⟨2, ![1, 64]⟩)
    (h1 : (⟨1, ![64]⟩ : Shape).BroadcastsInDim ⟨2, ![1, 64]⟩ ![1])
    (h2 : (⟨2, ![1, 64]⟩ : Shape).BroadcastsInDim ⟨2, ![n, 64]⟩ ![0, 1])
    (h0 : (⟨0, ![]⟩ : Shape).BroadcastsInDim ⟨2, ![n, 64]⟩ ![]) :
    Host.gather d (biasRelu x (shapeCast ⟨2, ![1, 64]⟩ b hc)) idx
      = maximumf (addf (Host.gather d x idx)
          (broadcastInDim ⟨2, ![n, 64]⟩ ![0, 1] h2 (broadcastInDim ⟨2, ![1, 64]⟩ ![1] h1 b)))
        (broadcastInDim ⟨2, ![n, 64]⟩ ![] h0 (constant (F := Ideal) ⟨0, ![]⟩ .f32 0x00000000#32)) := by
  refine (gather_colwise d hoff hcoll hob hsim
    (fun q a => max (a + shapeCast ⟨2, ![1, 64]⟩ b hc (ix2 (0 : Fin 1) q)) (Ideal.ofBits .f32 0x00000000#32)) x idx).trans ?_
  funext j
  rw [maximumf_apply, addf_apply]
  have e1 : broadcastInDim ⟨2, ![n, 64]⟩ ![0, 1] h2 (broadcastInDim ⟨2, ![1, 64]⟩ ![1] h1 b) j = b (ix1 (⟨(j 1).val, idx2_lt1 j⟩ : Fin 64)) := by
    rw [broadcastInDim_apply ![0, 1] h2 _ j (ix2 (0 : Fin 1) (⟨(j 1).val, idx2_lt1 j⟩ : Fin 64)) (fun a => by
      match a with
      | ⟨0, _⟩ => rfl
      | ⟨1, _⟩ => rfl)]
    exact broadcastInDim_apply ![1] h1 b (ix2 (0 : Fin 1) (⟨(j 1).val, idx2_lt1 j⟩ : Fin 64)) (ix1 (⟨(j 1).val, idx2_lt1 j⟩ : Fin 64)) (fun a => by
      match a with
      | ⟨0, _⟩ => rfl)
  have e2 : shapeCast ⟨2, ![1, 64]⟩ b hc (ix2 (0 : Fin 1) (⟨(j 1).val, idx2_lt1 j⟩ : Fin 64)) = b (ix1 (⟨(j 1).val, idx2_lt1 j⟩ : Fin 64)) :=
    shapeCast_apply b hc _ _ (by rw [Shape.rowMajor_val_one, Shape.rowMajor_val_two]; simp)
  rw [e1, e2]
  rfl

end GatherRows

end
-- ==== Proof.Region0.lean ====
/-
  Region 0 (the bias-and-clamp of the first 100000 × 64 table): what its output array holds once all ten grid points
  have written back. Point t stages rows 10000·t … 10000·t + 9999 of the table and the one bias row, and writes back
  max (x + bias, 0) for that block of rows; the ten blocks tile the array, so the array ends as the whole table biased and
  clamped, entry by entry.
-/
import proofs.«152420_j37014028157513_1_alg».proof.Proof.Gen.KernelIdeal.Frame
import proofs.«152420_j37014028157513_1_alg».proof.Proof.LibGatherRows
import Idealize.ShloMosaic.Lib.Pipeline.Value
import Idealize.ShloMosaic.Lib.ValueIdx

set_option maxRecDepth 16384

noncomputable section

namespace Cert.KernelIdeal.Region0

open Cert.KernelIdeal Cert.KernelIdeal.Gen GatherRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the loaded table block plus the bias row laid over every row, clamped below at zero. -/
theorem pay_eq (x0 : Vec Ideal S10000x64 .f32) (x1 : Vec Ideal S1x64 .f32) :
    k0_pay1 x0 x1 = maximumf (addf x0 (broadcastTo S10000x64 (shapeCast S1x64 x1 shapeCasts_S1x64_S1x64) broadcasts_S1x64_S10000x64))
      (broadcast S10000x64 (Scalar.ofBits .f32 0x00000000#32)) := rfl

/-- The index maps over the grid: the table's block and the output's block move together down the rows, the bias row's
    block stays put, and the output's row-block index stays in its range. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every row-block of the array is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- ONE ENTRY of what a point stores. If the staged table block reads, at block position `y`, the table's entry `i` of the
    same column, and the staged bias row is the bias row, the stored value at `y` is the biased, clamped table at `i`. -/
theorem point_eq (xb : Vec Ideal S10000x64 .f32) (bb : Vec Ideal S1x64 .f32) (X : Vec Ideal S100000x64 .f32) (B : Vec Ideal S1x64 .f32)
    (y : S10000x64.Idx) (i : S100000x64.Idx) (hx : xb y = X i) (hcol : (i 1).val = (y 1).val)
    (hb : ∀ q : Fin 64, bb (ix2 (0 : Fin 1) q) = B (ix2 (0 : Fin 1) q)) :
    maximumf (addf xb (broadcastTo S10000x64 (shapeCast S1x64 bb shapeCasts_S1x64_S1x64) broadcasts_S1x64_S10000x64))
      (broadcast S10000x64 (FloatOps.ofBits .f32 0x00000000#32)) y = biasRelu X B i := by
  rw [maximumf_apply, addf_apply, broadcast_apply]
  unfold biasRelu
  rw [broadcastTo_apply _ broadcasts_S1x64_S10000x64 y (ix2 (0 : Fin 1) (⟨(y 1).val, idx2_lt1 y⟩ : Fin 64)) (fun a => by
    match a with
    | ⟨0, _⟩ => rfl
    | ⟨1, _⟩ => rfl)]
  rw [shapeCast_self, hx, hb]
  have hq : (⟨(i 1).val, idx2_lt1 i⟩ : Fin 64) = ⟨(y 1).val, idx2_lt1 y⟩ := Fin.ext hcol
  rw [hq]
  rfl

theorem flushed_eq (c : Dev nD) (t : Fin cfg0.N) :
    (dat0 (F := Ideal) V c).flushed 2 t
      = ((cfg0.win 2).blk t).view.read (Elt Ideal) (biasRelu (V c main_arg0) (V c main_v0)) := by
  show (cfg0.win 2).cut (grid0.coords t) ((dat0 V c).after 2 t) = _
  rw [after0_2]
  unfold out0_2
  rw [View.canon_unit_zero hz]
  simp only [View.ld_unit_zero (S := S10000x64) hz, View.ld_unit_zero (S := S1x64) hz]
  rw [pay_eq]
  obtain ⟨e0, e1, e2, e3, e4, e5⟩ := idx_facts t
  funext j
  show maximumf (addf (iblk0 V c 0 t) (broadcastTo S10000x64 (shapeCast S1x64 (iblk0 V c 1 t) shapeCasts_S1x64_S1x64) broadcasts_S1x64_S10000x64))
      (broadcast S10000x64 (FloatOps.ofBits .f32 0x00000000#32)) j
    = biasRelu (V c main_arg0) (V c main_v0) (((cfg0.win 2).blk t).view.emb j)
  refine point_eq (iblk0 V c 0 t) (iblk0 V c 1 t) (V c main_arg0) (V c main_v0) j _ ?_ ?_ ?_
  · show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  · show win0_2.index t (1 : Fin 2) * 64 + 1 * (j 1).val = (j 1).val
    omega
  · intro q
    show V c main_v0 (((cfg0.win 1).blk t).view.emb (ix2 (0 : Fin 1) q)) = V c main_v0 (ix2 (0 : Fin 1) q)
    refine congrArg (V c main_v0) (funext fun a => Fin.ext ?_)
    match a with
    | ⟨0, _⟩ => show win0_1.index t (0 : Fin 2) * 1 + 1 * 0 = 0; omega
    | ⟨1, _⟩ => show win0_1.index t (1 : Fin 2) * 64 + 1 * q.val = q.val; omega

/-- An entry of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- Every entry is in some point's block: a row belongs to the point whose row-block index is the row divided by the
    block's row count. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY after the region: the table it found, biased by the bias row it found and clamped below at zero. -/
theorem arr (c : Dev nD) : (dat0 (F := Ideal) V c).arrAt 2 cfg0.N = biasRelu (V c main_arg0) (V c main_v0) :=
  (dat0 V c).arrAt_eq_of_cover 2 (biasRelu (V c main_arg0) (V c main_v0)) (fun t _ => flushed_eq V c t) cover

end Cert.KernelIdeal.Region0

end
-- ==== Proof.Region1.lean ====
/-
  Region 1 (the bias-and-clamp of the second 100000 × 64 table): what its output array holds once all ten grid points
  have written back. Point t stages rows 10000·t … 10000·t + 9999 of the table and the one bias row, and writes back
  max (x + bias, 0) for that block of rows; the ten blocks tile the array, so the array ends as the whole table biased and
  clamped, entry by entry.
-/
import proofs.«152420_j37014028157513_1_alg».proof.Proof.Gen.KernelIdeal.Frame
import proofs.«152420_j37014028157513_1_alg».proof.Proof.LibGatherRows
import Idealize.ShloMosaic.Lib.Pipeline.Value
import Idealize.ShloMosaic.Lib.ValueIdx

set_option maxRecDepth 16384

noncomputable section

namespace Cert.KernelIdeal.Region1

open Cert.KernelIdeal Cert.KernelIdeal.Gen GatherRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the loaded table block plus the bias row laid over every row, clamped below at zero. -/
theorem pay_eq (x0 : Vec Ideal S10000x64 .f32) (x1 : Vec Ideal S1x64 .f32) :
    k1_pay1 x0 x1 = maximumf (addf x0 (broadcastTo S10000x64 (shapeCast S1x64 x1 shapeCasts_S1x64_S1x64) broadcasts_S1x64_S10000x64))
      (broadcast S10000x64 (Scalar.ofBits .f32 0x00000000#32)) := rfl

/-- The index maps over the grid: the table's block and the output's block move together down the rows, the bias row's
    block stays put, and the output's row-block index stays in its range. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) ≤ 9 ∧ win1_2.index t (1 : Fin 2) = 0 :=
  (by decide +kernel : ∀ t : Fin grid1.N, _)

/-- Every row-block of the array is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- ONE ENTRY of what a point stores. If the staged table block reads, at block position `y`, the table's entry `i` of the
    same column, and the staged bias row is the bias row, the stored value at `y` is the biased, clamped table at `i`. -/
theorem point_eq (xb : Vec Ideal S10000x64 .f32) (bb : Vec Ideal S1x64 .f32) (X : Vec Ideal S100000x64 .f32) (B : Vec Ideal S1x64 .f32)
    (y : S10000x64.Idx) (i : S100000x64.Idx) (hx : xb y = X i) (hcol : (i 1).val = (y 1).val)
    (hb : ∀ q : Fin 64, bb (ix2 (0 : Fin 1) q) = B (ix2 (0 : Fin 1) q)) :
    maximumf (addf xb (broadcastTo S10000x64 (shapeCast S1x64 bb shapeCasts_S1x64_S1x64) broadcasts_S1x64_S10000x64))
      (broadcast S10000x64 (FloatOps.ofBits .f32 0x00000000#32)) y = biasRelu X B i := by
  rw [maximumf_apply, addf_apply, broadcast_apply]
  unfold biasRelu
  rw [broadcastTo_apply _ broadcasts_S1x64_S10000x64 y (ix2 (0 : Fin 1) (⟨(y 1).val, idx2_lt1 y⟩ : Fin 64)) (fun a => by
    match a with
    | ⟨0, _⟩ => rfl
    | ⟨1, _⟩ => rfl)]
  rw [shapeCast_self, hx, hb]
  have hq : (⟨(i 1).val, idx2_lt1 i⟩ : Fin 64) = ⟨(y 1).val, idx2_lt1 y⟩ := Fin.ext hcol
  rw [hq]
  rfl

theorem flushed_eq (c : Dev nD) (t : Fin cfg1.N) :
    (dat1 (F := Ideal) V c).flushed 2 t
      = ((cfg1.win 2).blk t).view.read (Elt Ideal) (biasRelu (V c main_arg1) (V c main_v2)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  rw [pay_eq]
  obtain ⟨e0, e1, e2, e3, e4, e5⟩ := idx_facts t
  funext j
  show maximumf (addf (iblk1 V c 0 t) (broadcastTo S10000x64 (shapeCast S1x64 (iblk1 V c 1 t) shapeCasts_S1x64_S1x64) broadcasts_S1x64_S10000x64))
      (broadcast S10000x64 (FloatOps.ofBits .f32 0x00000000#32)) j
    = biasRelu (V c main_arg1) (V c main_v2) (((cfg1.win 2).blk t).view.emb j)
  refine point_eq (iblk1 V c 0 t) (iblk1 V c 1 t) (V c main_arg1) (V c main_v2) j _ ?_ ?_ ?_
  · show V c main_arg1 (((cfg1.win 0).blk t).view.emb j) = V c main_arg1 (((cfg1.win 2).blk t).view.emb j)
    refine congrArg (V c main_arg1) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show win1_2.index t (1 : Fin 2) * 64 + 1 * (j 1).val = (j 1).val
    omega
  · intro q
    show V c main_v2 (((cfg1.win 1).blk t).view.emb (ix2 (0 : Fin 1) q)) = V c main_v2 (ix2 (0 : Fin 1) q)
    refine congrArg (V c main_v2) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega

/-- An entry of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v3).slice (win1_2.rect t)).set ↔ _
  rw [View.set_slice_whole, Rect.mem_set_unit]
  exact Iff.rfl

/-- Every entry is in some point's block: a row belongs to the point whose row-block index is the row divided by the
    block's row count. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE ARRAY after the region: the table it found, biased by the bias row it found and clamped below at zero. -/
theorem arr (c : Dev nD) : (dat1 (F := Ideal) V c).arrAt 2 cfg1.N = biasRelu (V c main_arg1) (V c main_v2) :=
  (dat1 V c).arrAt_eq_of_cover 2 (biasRelu (V c main_arg1) (V c main_v2)) (fun t _ => flushed_eq V c t) cover

end Cert.KernelIdeal.Region1

end
-- ==== Proof.Region2.lean ====
/-
  Region 2 (the bias-and-clamp of the first 1000 × 64 table): what its output array holds once its one grid point has
  written back. The point stages the whole table and the one bias row and writes back max (x + bias, 0); its one block is
  the array, so the array ends as the whole table biased and clamped, entry by entry.
-/
import proofs.«152420_j37014028157513_1_alg».proof.Proof.Gen.KernelIdeal.Frame
import proofs.«152420_j37014028157513_1_alg».proof.Proof.LibGatherRows
import Idealize.ShloMosaic.Lib.Pipeline.Value
import Idealize.ShloMosaic.Lib.ValueIdx

set_option maxRecDepth 16384

noncomputable section

namespace Cert.KernelIdeal.Region2

open Cert.KernelIdeal Cert.KernelIdeal.Gen GatherRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the loaded table block plus the bias row laid over every row, clamped below at zero. -/
theorem pay_eq (x0 : Vec Ideal S1000x64 .f32) (x1 : Vec Ideal S1x64 .f32) :
    k2_pay1 x0 x1 = maximumf (addf x0 (broadcastTo S1000x64 (shapeCast S1x64 x1 shapeCasts_S1x64_S1x64) broadcasts_S1x64_S1000x64))
      (broadcast S1000x64 (Scalar.ofBits .f32 0x00000000#32)) := rfl

/-- The index maps over the grid: the table's block and the output's block move together down the rows, the bias row's
    block stays put, and the output's row-block index stays in its range. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) ≤ 0 ∧ win2_2.index t (1 : Fin 2) = 0 :=
  (by decide +kernel : ∀ t : Fin grid2.N, _)

/-- Every row-block of the array is some point's. -/
theorem idx_onto : ∀ q0 : Fin 1, ∃ t : Fin cfg2.N, win2_2.index t = ![q0.val, 0] :=
  (by decide +kernel : ∀ q0 : Fin 1, ∃ t : Fin grid2.N, win2_2.index t = ![q0.val, 0])

/-- ONE ENTRY of what a point stores. If the staged table block reads, at block position `y`, the table's entry `i` of the
    same column, and the staged bias row is the bias row, the stored value at `y` is the biased, clamped table at `i`. -/
theorem point_eq (xb : Vec Ideal S1000x64 .f32) (bb : Vec Ideal S1x64 .f32) (X : Vec Ideal S1000x64 .f32) (B : Vec Ideal S1x64 .f32)
    (y : S1000x64.Idx) (i : S1000x64.Idx) (hx : xb y = X i) (hcol : (i 1).val = (y 1).val)
    (hb : ∀ q : Fin 64, bb (ix2 (0 : Fin 1) q) = B (ix2 (0 : Fin 1) q)) :
    maximumf (addf xb (broadcastTo S1000x64 (shapeCast S1x64 bb shapeCasts_S1x64_S1x64) broadcasts_S1x64_S1000x64))
      (broadcast S1000x64 (FloatOps.ofBits .f32 0x00000000#32)) y = biasRelu X B i := by
  rw [maximumf_apply, addf_apply, broadcast_apply]
  unfold biasRelu
  rw [broadcastTo_apply _ broadcasts_S1x64_S1000x64 y (ix2 (0 : Fin 1) (⟨(y 1).val, idx2_lt1 y⟩ : Fin 64)) (fun a => by
    match a with
    | ⟨0, _⟩ => rfl
    | ⟨1, _⟩ => rfl)]
  rw [shapeCast_self, hx, hb]
  have hq : (⟨(i 1).val, idx2_lt1 i⟩ : Fin 64) = ⟨(y 1).val, idx2_lt1 y⟩ := Fin.ext hcol
  rw [hq]
  rfl

theorem flushed_eq (c : Dev nD) (t : Fin cfg2.N) :
    (dat2 (F := Ideal) V c).flushed 2 t
      = ((cfg2.win 2).blk t).view.read (Elt Ideal) (biasRelu (V c main_arg2) (V c main_v4)) := by
  show (cfg2.win 2).cut (grid2.coords t) ((dat2 V c).after 2 t) = _
  rw [after2_2]
  unfold out2_2
  rw [View.canon_unit_zero hz]
  simp only [View.ld_unit_zero (S := S1000x64) hz, View.ld_unit_zero (S := S1x64) hz]
  rw [pay_eq]
  obtain ⟨e0, e1, e2, e3, e4, e5⟩ := idx_facts t
  funext j
  show maximumf (addf (iblk2 V c 0 t) (broadcastTo S1000x64 (shapeCast S1x64 (iblk2 V c 1 t) shapeCasts_S1x64_S1x64) broadcasts_S1x64_S1000x64))
      (broadcast S1000x64 (FloatOps.ofBits .f32 0x00000000#32)) j
    = biasRelu (V c main_arg2) (V c main_v4) (((cfg2.win 2).blk t).view.emb j)
  refine point_eq (iblk2 V c 0 t) (iblk2 V c 1 t) (V c main_arg2) (V c main_v4) j _ ?_ ?_ ?_
  · show V c main_arg2 (((cfg2.win 0).blk t).view.emb j) = V c main_arg2 (((cfg2.win 2).blk t).view.emb j)
    refine congrArg (V c main_arg2) (funext fun a => Fin.ext ?_)
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 64 + 1 * (j 1).val = win2_2.index t (1 : Fin 2) * 64 + 1 * (j 1).val; omega
  · show win2_2.index t (1 : Fin 2) * 64 + 1 * (j 1).val = (j 1).val
    omega
  · intro q
    show V c main_v4 (((cfg2.win 1).blk t).view.emb (ix2 (0 : Fin 1) q)) = V c main_v4 (ix2 (0 : Fin 1) q)
    refine congrArg (V c main_v4) (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega

/-- An entry of the array is in point `t`'s block iff each coordinate is in the block's range on its axis. -/
theorem mem_blk (t : Fin cfg2.N) (i : S1000x64.Idx) :
    i ∈ ((cfg2.win 2).blk t).view.set ↔ ∀ a : Fin 2, win2_2.index t a * S1000x64.size a ≤ (i a).val ∧ (i a).val < win2_2.index t a * S1000x64.size a + S1000x64.size a := by
  show i ∈ ((View.whole main_v5).slice (win2_2.rect t)).set ↔ _
  rw [View.set_slice_whole, Rect.mem_set_unit]
  exact Iff.rfl

/-- Every entry is in some point's block: a row belongs to the point whose row-block index is the row divided by the
    block's row count. -/
theorem cover (i : S1000x64.Idx) : ∃ t : Fin cfg2.N, (cfg2.win 2).flush t = true ∧ i ∈ ((cfg2.win 2).blk t).view.set := by
  have hi0 : (i 0).val < 1000 := (i 0).isLt
  have hi1 : (i 1).val < 64 := (i 1).isLt
  obtain ⟨t, ht⟩ := idx_onto ⟨(i 0).val / 1000, by omega⟩
  have q0 : win2_2.index t (0 : Fin 2) = (i 0).val / 1000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 64 ≤ (i 1).val ∧ (i 1).val < win2_2.index t (1 : Fin 2) * 64 + 64; omega

/-- THE ARRAY after the region: the table it found, biased by the bias row it found and clamped below at zero. -/
theorem arr (c : Dev nD) : (dat2 (F := Ideal) V c).arrAt 2 cfg2.N = biasRelu (V c main_arg2) (V c main_v4) :=
  (dat2 V c).arrAt_eq_of_cover 2 (biasRelu (V c main_arg2) (V c main_v4)) (fun t _ => flushed_eq V c t) cover

end Cert.KernelIdeal.Region2

end
-- ==== Proof.Region3.lean ====
/-
  Region 3 (the bias-and-clamp of the second 1000 × 64 table): what its output array holds once its one grid point has
  written back. The point stages the whole table and the one bias row and writes back max (x + bias, 0); its one block is
  the array, so the array ends as the whole table biased and clamped, entry by entry.
-/
import proofs.«152420_j37014028157513_1_alg».proof.Proof.Gen.KernelIdeal.Frame
import proofs.«152420_j37014028157513_1_alg».proof.Proof.LibGatherRows
import Idealize.ShloMosaic.Lib.Pipeline.Value
import Idealize.ShloMosaic.Lib.ValueIdx

set_option maxRecDepth 16384

noncomputable section

namespace Cert.KernelIdeal.Region3

open Cert.KernelIdeal Cert.KernelIdeal.Gen GatherRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value: the loaded table block plus the bias row laid over every row, clamped below at zero. -/
theorem pay_eq (x0 : Vec Ideal S1000x64 .f32) (x1 : Vec Ideal S1x64 .f32) :
    k3_pay1 x0 x1 = maximumf (addf x0 (broadcastTo S1000x64 (shapeCast S1x64 x1 shapeCasts_S1x64_S1x64) broadcasts_S1x64_S1000x64))
      (broadcast S1000x64 (Scalar.ofBits .f32 0x00000000#32)) := rfl

/-- The index maps over the grid: the table's block and the output's block move together down the rows, the bias row's
    block stays put, and the output's row-block index stays in its range. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) ≤ 0 ∧ win3_2.index t (1 : Fin 2) = 0 :=
  (by decide +kernel : ∀ t : Fin grid3.N, _)

/-- Every row-block of the array is some point's. -/
theorem idx_onto : ∀ q0 : Fin 1, ∃ t : Fin cfg3.N, win3_2.index t = ![q0.val, 0] :=
  (by decide +kernel : ∀ q0 : Fin 1, ∃ t : Fin grid3.N, win3_2.index t = ![q0.val, 0])

/-- ONE ENTRY of what a point stores. If the staged table block reads, at block position `y`, the table's entry `i` of the
    same column, and the staged bias row is the bias row, the stored value at `y` is the biased, clamped table at `i`. -/
theorem point_eq (xb : Vec Ideal S1000x64 .f32) (bb : Vec Ideal S1x64 .f32) (X : Vec Ideal S1000x64 .f32) (B : Vec Ideal S1x64 .f32)
    (y : S1000x64.Idx) (i : S1000x64.Idx) (hx : xb y = X i) (hcol : (i 1).val = (y 1).val)
    (hb : ∀ q : Fin 64, bb (ix2 (0 : Fin 1) q) = B (ix2 (0 : Fin 1) q)) :
    maximumf (addf xb (broadcastTo S1000x64 (shapeCast S1x64 bb shapeCasts_S1x64_S1x64) broadcasts_S1x64_S1000x64))
      (broadcast S1000x64 (FloatOps.ofBits .f32 0x00000000#32)) y = biasRelu X B i := by
  rw [maximumf_apply, addf_apply, broadcast_apply]
  unfold biasRelu
  rw [broadcastTo_apply _ broadcasts_S1x64_S1000x64 y (ix2 (0 : Fin 1) (⟨(y 1).val, idx2_lt1 y⟩ : Fin 64)) (fun a => by
    match a with
    | ⟨0, _⟩ => rfl
    | ⟨1, _⟩ => rfl)]
  rw [shapeCast_self, hx, hb]
  have hq : (⟨(i 1).val, idx2_lt1 i⟩ : Fin 64) = ⟨(y 1).val, idx2_lt1 y⟩ := Fin.ext hcol
  rw [hq]
  rfl

theorem flushed_eq (c : Dev nD) (t : Fin cfg3.N) :
    (dat3 (F := Ideal) V c).flushed 2 t
      = ((cfg3.win 2).blk t).view.read (Elt Ideal) (biasRelu (V c main_arg3) (V c main_v6)) := by
  show (cfg3.win 2).cut (grid3.coords t) ((dat3 V c).after 2 t) = _
  rw [after3_2]
  unfold out3_2
  rw [View.canon_unit_zero hz]
  simp only [View.ld_unit_zero (S := S1000x64) hz, View.ld_unit_zero (S := S1x64) hz]
  rw [pay_eq]
  obtain ⟨e0, e1, e2, e3, e4, e5⟩ := idx_facts t
  funext j
  show maximumf (addf (iblk3 V c 0 t) (broadcastTo S1000x64 (shapeCast S1x64 (iblk3 V c 1 t) shapeCasts_S1x64_S1x64) broadcasts_S1x64_S1000x64))
      (broadcast S1000x64 (FloatOps.ofBits .f32 0x00000000#32)) j
    = biasRelu (V c main_arg3) (V c main_v6) (((cfg3.win 2).blk t).view.emb j)
  refine point_eq (iblk3 V c 0 t) (iblk3 V c 1 t) (V c main_arg3) (V c main_v6) j _ ?_ ?_ ?_
  · show V c main_arg3 (((cfg3.win 0).blk t).view.emb j) = V c main_arg3 (((cfg3.win 2).blk t).view.emb j)
    refine congrArg (V c main_arg3) (funext fun a => Fin.ext ?_)
    match a with
    | ⟨0, _⟩ => show win3_0.index t (0 : Fin 2) * 1000 + 1 * (j 0).val = win3_2.index t (0 : Fin 2) * 1000 + 1 * (j 0).val; omega
    | ⟨1, _⟩ => show win3_0.index t (1 : Fin 2) * 64 + 1 * (j 1).val = win3_2.index t (1 : Fin 2) * 64 + 1 * (j 1).val; omega
  · show win3_2.index t (1 : Fin 2) * 64 + 1 * (j 1).val = (j 1).val
    omega
  · intro q
    show V c main_v6 (((cfg3.win 1).blk t).view.emb (ix2 (0 : Fin 1) q)) = V c main_v6 (ix2 (0 : Fin 1) q)
    refine congrArg (V c main_v6) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega

/-- An entry of the array is in point `t`'s block iff each coordinate is in the block's range on its axis. -/
theorem mem_blk (t : Fin cfg3.N) (i : S1000x64.Idx) :
    i ∈ ((cfg3.win 2).blk t).view.set ↔ ∀ a : Fin 2, win3_2.index t a * S1000x64.size a ≤ (i a).val ∧ (i a).val < win3_2.index t a * S1000x64.size a + S1000x64.size a := by
  show i ∈ ((View.whole main_v7).slice (win3_2.rect t)).set ↔ _
  rw [View.set_slice_whole, Rect.mem_set_unit]
  exact Iff.rfl

/-- Every entry is in some point's block: a row belongs to the point whose row-block index is the row divided by the
    block's row count. -/
theorem cover (i : S1000x64.Idx) : ∃ t : Fin cfg3.N, (cfg3.win 2).flush t = true ∧ i ∈ ((cfg3.win 2).blk t).view.set := by
  have hi0 : (i 0).val < 1000 := (i 0).isLt
  have hi1 : (i 1).val < 64 := (i 1).isLt
  obtain ⟨t, ht⟩ := idx_onto ⟨(i 0).val / 1000, by omega⟩
  have q0 : win3_2.index t (0 : Fin 2) = (i 0).val / 1000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 64 ≤ (i 1).val ∧ (i 1).val < win3_2.index t (1 : Fin 2) * 64 + 64; omega

/-- THE ARRAY after the region: the table it found, biased by the bias row it found and clamped below at zero. -/
theorem arr (c : Dev nD) : (dat3 (F := Ideal) V c).arrAt 2 cfg3.N = biasRelu (V c main_arg3) (V c main_v6) :=
  (dat3 V c).arrAt_eq_of_cover 2 (biasRelu (V c main_arg3) (V c main_v6)) (fun t _ => flushed_eq V c t) cover

end Cert.KernelIdeal.Region3

end
-- ==== Proof.KernelFold.lean ====
/-
  What the result buffer holds after the program's last boundary, as a function of the argument arrays.
  The program's tail after its four regions is, for each of the four message tables: normalise the edge indices (a
  negative index counts from the end), take the indexed rows of the table, add them up per target vertex
  (a scatter-add over the segment ids), and divide each row by the vertex's in-degree, at least 1; the two means per
  vertex set are added and the two vertex sets stacked. Those operations are named here once (`normIdx`, `segMeanE`,
  `segMeanR`, `collect`), the result buffer is read off the tail's operations, and each buffer the tail reads is walked
  back through the boundaries: an index array or a table argument to its launch contents, a region's output to what the
  region's write-backs leave, which is the region's table biased and clamped (Region0 … Region3).
-/
import proofs.«152420_j37014028157513_1_alg».proof.Proof.Gen.KernelIdeal.Frame
import proofs.«152420_j37014028157513_1_alg».proof.Proof.LibGatherRows
import proofs.«152420_j37014028157513_1_alg».proof.Proof.Region0
import proofs.«152420_j37014028157513_1_alg».proof.Proof.Region1
import proofs.«152420_j37014028157513_1_alg».proof.Proof.Region2
import proofs.«152420_j37014028157513_1_alg».proof.Proof.Region3
import Idealize.ShloMosaic.Lib.StableHlo.Run

set_option maxRecDepth 16384

noncomputable section

namespace Cert.KernelIdeal.Fold

open Cert.KernelIdeal Cert.KernelIdeal.Gen GatherRows
open Idealize.ShloMosaic Idealize.ShloMosaic.TcCoe Idealize.SL.Sem Idealize.ShloMosaic.StableHlo

/-! ## The tail's operations, named -/

/-- Edge indices normalised against a table of `n` rows (a negative index counts from the end), as a column. -/
def normIdx (n : BitVec 32) (a : IVec S1000000 32) : IVec S1000000x1 32 :=
  broadcastInDim S1000000x1 ![0] bcast_S1000000_S1000000x1_0
    (select (cmpi .slt a (broadcastInDim S1000000 ![] bcast_S_S1000000 (constantI S_ 32 0#32)))
      (addi a (broadcastInDim S1000000 ![] bcast_S_S1000000 (constantI S_ 32 n))) a)

/-- The mean of the messages arriving at each of the 100000 entity vertices: their sum per segment over the segment's
    size, at least 1. -/
def segMeanE (msgs : FVec Ideal S1000000x64 .f32) (seg : IVec S1000000 32) : FVec Ideal S100000x64 .f32 :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 seg) msgs)
    (broadcastInDim S100000x64 ![0, 1] bcast_S100000x1_S100000x64_0_1 (broadcastInDim S100000x1 ![0] bcast_S100000_S100000x1_0
      (maximumf
        (Host.scatterAdd scatter_S100000_S1000000x1_S1000000_n_0_0_1
          (broadcastInDim S100000 ![] bcast_S_S100000 (constant S_ .f32 0x00000000#32))
          (broadcastInDim S1000000x1 ![0] bcast_S1000000_S1000000x1_0 seg)
          (broadcastInDim S1000000 ![] bcast_S_S1000000 (constant S_ .f32 0x3F800000#32)))
        (broadcastInDim S100000 ![] bcast_S_S100000 (constant S_ .f32 0x3F800000#32)))))

/-- The same mean at each of the 1000 relation vertices. -/
def segMeanR (msgs : FVec Ideal S1000000x64 .f32) (seg : IVec S1000000 32) : FVec Ideal S1000x64 .f32 :=
  Host.divf
    (Host.scatterAdd scatter_S1000x64_S1000000x1_S1000000x64_1_0_0_1
      (broadcastInDim S1000x64 ![] bcast_S_S1000x64 (constant S_ .f32 0x00000000#32))
      (broadcastInDim S1000000x1 ![0] bcast_S1000000_S1000000x1_0 seg) msgs)
    (broadcastInDim S1000x64 ![0, 1] bcast_S1000x1_S1000x64_0_1 (broadcastInDim S1000x1 ![0] bcast_S1000_S1000x1_0
      (maximumf
        (Host.scatterAdd scatter_S1000_S1000000x1_S1000000_n_0_0_1
          (broadcastInDim S1000 ![] bcast_S_S1000 (constant S_ .f32 0x00000000#32))
          (broadcastInDim S1000000x1 ![0] bcast_S1000000_S1000000x1_0 seg)
          (broadcastInDim S1000000 ![] bcast_S_S1000000 (constant S_ .f32 0x3F800000#32)))
        (broadcastInDim S1000 ![] bcast_S_S1000 (constant S_ .f32 0x3F800000#32)))))

/-- The collected vertex embeddings: per entity the mean of the relation messages along its incoming and its outgoing
    edges, per relation the mean of the entity messages, the two vertex sets stacked. -/
def collect (mrf mrb mef meb : FVec Ideal S1000000x64 .f32) (eS eR rS rR : IVec S1000000 32) : FVec Ideal S101000x64 .f32 :=
  concatenate S101000x64 0
    [⟨S100000x64, addf (segMeanE mrf eR) (segMeanE mrb eS)⟩, ⟨S1000x64, addf (segMeanR mef rR) (segMeanR meb rS)⟩]
    concatenates_S100000x64_S1000x64_S101000x64_d0

/-! ## The result buffer, read off the tail -/

variable (m : (ℓ : Loc nD τ sig) → Buf (Elt Ideal) ℓ) (ρ : Dev nD → PrngReg)

set_option maxHeartbeats 20000000 in
/-- After the last stretch the result buffer holds `collect` of the rows taken from the four regions' output tables. -/
theorem tail_eq (c : Dev nD) :
    W9 m ρ c (Proc.devRef .tc main_v86)
      = collect
          (Host.gather gather_S1000x64_S1000000x1_S1000000x64_1_0_n_n_0_1_164 (W8 m ρ c (Proc.devRef .tc main_v5)) (normIdx 1000#32 (W8 m ρ c (Proc.devRef .tc main_arg10))))
          (Host.gather gather_S1000x64_S1000000x1_S1000000x64_1_0_n_n_0_1_164 (W8 m ρ c (Proc.devRef .tc main_v7)) (normIdx 1000#32 (W8 m ρ c (Proc.devRef .tc main_arg11))))
          (Host.gather gather_S100000x64_S1000000x1_S1000000x64_1_0_n_n_0_1_164 (W8 m ρ c (Proc.devRef .tc main_v1)) (normIdx 100000#32 (W8 m ρ c (Proc.devRef .tc main_arg8))))
          (Host.gather gather_S100000x64_S1000000x1_S1000000x64_1_0_n_n_0_1_164 (W8 m ρ c (Proc.devRef .tc main_v3)) (normIdx 100000#32 (W8 m ρ c (Proc.devRef .tc main_arg9))))
          (W8 m ρ c (Proc.devRef .tc main_arg8)) (W8 m ρ c (Proc.devRef .tc main_arg9))
          (W8 m ρ c (Proc.devRef .tc main_arg10)) (W8 m ρ c (Proc.devRef .tc main_arg11)) := by
  show StableHlo.after hostOps4 (W8 m ρ c) (Proc.devRef .tc main_v86) = _
  generalize W8 m ρ c = W
  -- the last operation stacks two arrays; each of them is then read off the operations before it
  after_results_simp
  unfold collect
  refine congrArg₂ (fun a b => concatenate S101000x64 0 [⟨S100000x64, a⟩, ⟨S1000x64, b⟩] concatenates_S100000x64_S1000x64_S101000x64_d0) ?_ ?_
  · after_results_simp
    unfold segMeanE normIdx
    rfl
  · after_results_simp
    unfold segMeanR normIdx
    rfl

/-! ## Walking a buffer back through the boundaries

A host stretch between two regions is one reshape (a bias vector laid as a row): it writes that row's buffer and leaves
every other buffer alone. A region writes its three arrays and leaves every other buffer alone. -/

theorem W1_ne (c : Dev nD) {r : Ref sig .tc} (h : r ≠ main_v0) : W1 m ρ c (Proc.devRef .tc r) = W0 m ρ c (Proc.devRef .tc r) :=
  StableHlo.reshape_result_ne _ _ _ _ _ _ (W0 m ρ c) h
theorem W3_ne (c : Dev nD) {r : Ref sig .tc} (h : r ≠ main_v2) : W3 m ρ c (Proc.devRef .tc r) = W2 m ρ c (Proc.devRef .tc r) :=
  StableHlo.reshape_result_ne _ _ _ _ _ _ (W2 m ρ c) h
theorem W5_ne (c : Dev nD) {r : Ref sig .tc} (h : r ≠ main_v4) : W5 m ρ c (Proc.devRef .tc r) = W4 m ρ c (Proc.devRef .tc r) :=
  StableHlo.reshape_result_ne _ _ _ _ _ _ (W4 m ρ c) h
theorem W7_ne (c : Dev nD) {r : Ref sig .tc} (h : r ≠ main_v6) : W7 m ρ c (Proc.devRef .tc r) = W6 m ρ c (Proc.devRef .tc r) :=
  StableHlo.reshape_result_ne _ _ _ _ _ _ (W6 m ρ c) h

/-- One step back at a time, as long as the buffer is not one the step writes. -/
macro "walk" : tactic => `(tactic| repeat (first
  | (rw [W8_of_ne]; rotate_left; decide)
  | (rw [W7_ne]; rotate_left; decide)
  | (rw [W6_of_ne]; rotate_left; decide)
  | (rw [W5_ne]; rotate_left; decide)
  | (rw [W4_of_ne]; rotate_left; decide)
  | (rw [W3_ne]; rotate_left; decide)
  | (rw [W2_of_ne]; rotate_left; decide)
  | (rw [W1_ne]; rotate_left; decide)))

/-! ### The edge index arrays reach the tail as launched -/

theorem W8_eS (c : Dev nD) : W8 m ρ c (Proc.devRef .tc main_arg8) = m ((c : Thread nD τ).loc main_arg8) := by walk <;> rfl
theorem W8_eR (c : Dev nD) : W8 m ρ c (Proc.devRef .tc main_arg9) = m ((c : Thread nD τ).loc main_arg9) := by walk <;> rfl
theorem W8_rS (c : Dev nD) : W8 m ρ c (Proc.devRef .tc main_arg10) = m ((c : Thread nD τ).loc main_arg10) := by walk <;> rfl
theorem W8_rR (c : Dev nD) : W8 m ρ c (Proc.devRef .tc main_arg11) = m ((c : Thread nD τ).loc main_arg11) := by walk <;> rfl

/-! ### Each region finds its table as launched and its bias vector laid as a row -/

theorem V1_table (c : Dev nD) : V1 m ρ c main_arg0 = m ((c : Thread nD τ).loc main_arg0) := by
  show W1 m ρ c (Proc.devRef .tc main_arg0) = _; walk <;> rfl
theorem V3_table (c : Dev nD) : V3 m ρ c main_arg1 = m ((c : Thread nD τ).loc main_arg1) := by
  show W3 m ρ c (Proc.devRef .tc main_arg1) = _; walk <;> rfl
theorem V5_table (c : Dev nD) : V5 m ρ c main_arg2 = m ((c : Thread nD τ).loc main_arg2) := by
  show W5 m ρ c (Proc.devRef .tc main_arg2) = _; walk <;> rfl
theorem V7_table (c : Dev nD) : V7 m ρ c main_arg3 = m ((c : Thread nD τ).loc main_arg3) := by
  show W7 m ρ c (Proc.devRef .tc main_arg3) = _; walk <;> rfl

theorem V1_bias (c : Dev nD) : V1 m ρ c main_v0 = shapeCast S1x64 (m ((c : Thread nD τ).loc main_arg4)) shapeCasts_S64_S1x64 := by
  show StableHlo.after hostOps0 (W0 m ρ c) (Proc.devRef .tc main_v0) = _
  after_results
  rfl
theorem V3_bias (c : Dev nD) : V3 m ρ c main_v2 = shapeCast S1x64 (m ((c : Thread nD τ).loc main_arg5)) shapeCasts_S64_S1x64 := by
  show StableHlo.after hostOps1 (W2 m ρ c) (Proc.devRef .tc main_v2) = _
  after_results
  rw [show W2 m ρ c (Proc.devRef .tc main_arg5) = m ((c : Thread nD τ).loc main_arg5) from by walk <;> rfl]
  rfl
theorem V5_bias (c : Dev nD) : V5 m ρ c main_v4 = shapeCast S1x64 (m ((c : Thread nD τ).loc main_arg6)) shapeCasts_S64_S1x64 := by
  show StableHlo.after hostOps2 (W4 m ρ c) (Proc.devRef .tc main_v4) = _
  after_results
  rw [show W4 m ρ c (Proc.devRef .tc main_arg6) = m ((c : Thread nD τ).loc main_arg6) from by walk <;> rfl]
  rfl
theorem V7_bias (c : Dev nD) : V7 m ρ c main_v6 = shapeCast S1x64 (m ((c : Thread nD τ).loc main_arg7)) shapeCasts_S64_S1x64 := by
  show StableHlo.after hostOps3 (W6 m ρ c) (Proc.devRef .tc main_v6) = _
  after_results
  rw [show W6 m ρ c (Proc.devRef .tc main_arg7) = m ((c : Thread nD τ).loc main_arg7) from by walk <;> rfl]
  rfl

/-! ### Each region's output table reaches the tail as the region left it: its table biased and clamped -/

theorem W8_v1 (c : Dev nD) : W8 m ρ c (Proc.devRef .tc main_v1)
    = biasRelu (m ((c : Thread nD τ).loc main_arg0)) (shapeCast S1x64 (m ((c : Thread nD τ).loc main_arg4)) shapeCasts_S64_S1x64) := by
  walk
  rw [show W2 m ρ c (Proc.devRef .tc main_v1) = (dat0 (V1 m ρ) c).arrAt 2 cfg0.N from W2_arr m ρ c 2, Region0.arr (V1 m ρ) c,
    V1_table, V1_bias]
theorem W8_v3 (c : Dev nD) : W8 m ρ c (Proc.devRef .tc main_v3)
    = biasRelu (m ((c : Thread nD τ).loc main_arg1)) (shapeCast S1x64 (m ((c : Thread nD τ).loc main_arg5)) shapeCasts_S64_S1x64) := by
  walk
  rw [show W4 m ρ c (Proc.devRef .tc main_v3) = (dat1 (V3 m ρ) c).arrAt 2 cfg1.N from W4_arr m ρ c 2, Region1.arr (V3 m ρ) c,
    V3_table, V3_bias]
theorem W8_v5 (c : Dev nD) : W8 m ρ c (Proc.devRef .tc main_v5)
    = biasRelu (m ((c : Thread nD τ).loc main_arg2)) (shapeCast S1x64 (m ((c : Thread nD τ).loc main_arg6)) shapeCasts_S64_S1x64) := by
  walk
  rw [show W6 m ρ c (Proc.devRef .tc main_v5) = (dat2 (V5 m ρ) c).arrAt 2 cfg2.N from W6_arr m ρ c 2, Region2.arr (V5 m ρ) c,
    V5_table, V5_bias]
theorem W8_v7 (c : Dev nD) : W8 m ρ c (Proc.devRef .tc main_v7)
    = biasRelu (m ((c : Thread nD τ).loc main_arg3)) (shapeCast S1x64 (m ((c : Thread nD τ).loc main_arg7)) shapeCasts_S64_S1x64) := by
  rw [show W8 m ρ c (Proc.devRef .tc main_v7) = (dat3 (V7 m ρ) c).arrAt 2 cfg3.N from W8_arr m ρ c 2, Region3.arr (V7 m ρ) c,
    V7_table, V7_bias]

/-! ## The result buffer as a function of the argument arrays -/

/-- THE KERNEL'S RESULT: `collect` of the rows taken, at the normalised edge indices, from each table biased and clamped. -/
theorem result_eq (c : Dev nD) :
    W9 m ρ c (Proc.devRef .tc main_v86)
      = collect
          (Host.gather gather_S1000x64_S1000000x1_S1000000x64_1_0_n_n_0_1_164
            (biasRelu (m ((c : Thread nD τ).loc main_arg2)) (shapeCast S1x64 (m ((c : Thread nD τ).loc main_arg6)) shapeCasts_S64_S1x64))
            (normIdx 1000#32 (m ((c : Thread nD τ).loc main_arg10))))
          (Host.gather gather_S1000x64_S1000000x1_S1000000x64_1_0_n_n_0_1_164
            (biasRelu (m ((c : Thread nD τ).loc main_arg3)) (shapeCast S1x64 (m ((c : Thread nD τ).loc main_arg7)) shapeCasts_S64_S1x64))
            (normIdx 1000#32 (m ((c : Thread nD τ).loc main_arg11))))
          (Host.gather gather_S100000x64_S1000000x1_S1000000x64_1_0_n_n_0_1_164
            (biasRelu (m ((c : Thread nD τ).loc main_arg0)) (shapeCast S1x64 (m ((c : Thread nD τ).loc main_arg4)) shapeCasts_S64_S1x64))
            (normIdx 100000#32 (m ((c : Thread nD τ).loc main_arg8))))
          (Host.gather gather_S100000x64_S1000000x1_S1000000x64_1_0_n_n_0_1_164
            (biasRelu (m ((c : Thread nD τ).loc main_arg1)) (shapeCast S1x64 (m ((c : Thread nD τ).loc main_arg5)) shapeCasts_S64_S1x64))
            (normIdx 100000#32 (m ((c : Thread nD τ).loc main_arg9))))
          (m ((c : Thread nD τ).loc main_arg8)) (m ((c : Thread nD τ).loc main_arg9))
          (m ((c : Thread nD τ).loc main_arg10)) (m ((c : Thread nD τ).loc main_arg11)) := by
  rw [tail_eq, W8_v1, W8_v3, W8_v5, W8_v7, W8_eS, W8_eR, W8_rS, W8_rR]

end Cert.KernelIdeal.Fold

end
-- ==== Proof.Bridge.lean ====
/-
  The two programs end with the same array. The kernel's result is `collect` of rows taken from each table AFTER the
  table was biased and clamped; the reference takes the rows first and biases and clamps the taken rows. Adding a bias row
  and clamping at zero acts on each entry through the entry and its column alone, and a row-take keeps columns, so the two
  orders give the same rows (LibGatherRows); everything after the take — the sums per target vertex, the division by the
  in-degree, the stacking — is the same function of those rows and of the same edge index arrays on both sides. No law of
  the extended reals is used beyond that: no entry is ever moved across a sum or a quotient.
-/
import proofs.«152420_j37014028157513_1_alg».proof.Proof.Gen.ReferenceIdeal.Run
import proofs.«152420_j37014028157513_1_alg».proof.Proof.KernelFold
import proofs.«152420_j37014028157513_1_alg».proof.Proof.LibGatherRows

set_option maxRecDepth 16384

noncomputable section

namespace Cert.Bridge

open Idealize.ShloMosaic Idealize.ShloMosaic.TcCoe Idealize.SL.Sem

set_option maxHeartbeats 2000000 in
/-- From memories that agree on the twelve arguments, the reference's result term is what the kernel's result buffer holds
    after its last boundary. -/
theorem result_agrees (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v94 m' c = Cert.KernelIdeal.Gen.W9 m ρ c (Proc.devRef .tc Cert.KernelIdeal.main_v86) := by
  obtain ⟨h0, h1, h2, h3, h4, h5, h6, h7, h8, h9, h10, h11⟩ := h
  rw [Cert.KernelIdeal.Fold.result_eq m ρ c]
  rw [GatherRows.gather_biasRelu Cert.KernelIdeal.gather_S1000x64_S1000000x1_S1000000x64_1_0_n_n_0_1_164 rfl rfl rfl rfl (m ((c.tc : Thread Cert.KernelIdeal.nD Cert.KernelIdeal.τ).loc Cert.KernelIdeal.main_arg2)) (m ((c.tc : Thread Cert.KernelIdeal.nD Cert.KernelIdeal.τ).loc Cert.KernelIdeal.main_arg6))
      (Cert.KernelIdeal.Fold.normIdx 1000#32 (m ((c.tc : Thread Cert.KernelIdeal.nD Cert.KernelIdeal.τ).loc Cert.KernelIdeal.main_arg10))) Cert.KernelIdeal.Gen.shapeCasts_S64_S1x64 Cert.ReferenceIdeal.Gen.bcast_S64_S1x64_1 Cert.ReferenceIdeal.Gen.bcast_S1x64_S1000000x64_0_1 Cert.ReferenceIdeal.Gen.bcast_S_S1000000x64,
    GatherRows.gather_biasRelu Cert.KernelIdeal.gather_S1000x64_S1000000x1_S1000000x64_1_0_n_n_0_1_164 rfl rfl rfl rfl (m ((c.tc : Thread Cert.KernelIdeal.nD Cert.KernelIdeal.τ).loc Cert.KernelIdeal.main_arg3)) (m ((c.tc : Thread Cert.KernelIdeal.nD Cert.KernelIdeal.τ).loc Cert.KernelIdeal.main_arg7))
      (Cert.KernelIdeal.Fold.normIdx 1000#32 (m ((c.tc : Thread Cert.KernelIdeal.nD Cert.KernelIdeal.τ).loc Cert.KernelIdeal.main_arg11))) Cert.KernelIdeal.Gen.shapeCasts_S64_S1x64 Cert.ReferenceIdeal.Gen.bcast_S64_S1x64_1 Cert.ReferenceIdeal.Gen.bcast_S1x64_S1000000x64_0_1 Cert.ReferenceIdeal.Gen.bcast_S_S1000000x64,
    GatherRows.gather_biasRelu Cert.KernelIdeal.gather_S100000x64_S1000000x1_S1000000x64_1_0_n_n_0_1_164 rfl rfl rfl rfl (m ((c.tc : Thread Cert.KernelIdeal.nD Cert.KernelIdeal.τ).loc Cert.KernelIdeal.main_arg0)) (m ((c.tc : Thread Cert.KernelIdeal.nD Cert.KernelIdeal.τ).loc Cert.KernelIdeal.main_arg4))
      (Cert.KernelIdeal.Fold.normIdx 100000#32 (m ((c.tc : Thread Cert.KernelIdeal.nD Cert.KernelIdeal.τ).loc Cert.KernelIdeal.main_arg8))) Cert.KernelIdeal.Gen.shapeCasts_S64_S1x64 Cert.ReferenceIdeal.Gen.bcast_S64_S1x64_1 Cert.ReferenceIdeal.Gen.bcast_S1x64_S1000000x64_0_1 Cert.ReferenceIdeal.Gen.bcast_S_S1000000x64,
    GatherRows.gather_biasRelu Cert.KernelIdeal.gather_S100000x64_S1000000x1_S1000000x64_1_0_n_n_0_1_164 rfl rfl rfl rfl (m ((c.tc : Thread Cert.KernelIdeal.nD Cert.KernelIdeal.τ).loc Cert.KernelIdeal.main_arg1)) (m ((c.tc : Thread Cert.KernelIdeal.nD Cert.KernelIdeal.τ).loc Cert.KernelIdeal.main_arg5))
      (Cert.KernelIdeal.Fold.normIdx 100000#32 (m ((c.tc : Thread Cert.KernelIdeal.nD Cert.KernelIdeal.τ).loc Cert.KernelIdeal.main_arg9))) Cert.KernelIdeal.Gen.shapeCasts_S64_S1x64 Cert.ReferenceIdeal.Gen.bcast_S64_S1x64_1 Cert.ReferenceIdeal.Gen.bcast_S1x64_S1000000x64_0_1 Cert.ReferenceIdeal.Gen.bcast_S_S1000000x64]
  unfold Cert.ReferenceIdeal.Value.res_main_v94 Cert.KernelIdeal.Fold.collect Cert.KernelIdeal.Fold.segMeanE Cert.KernelIdeal.Fold.segMeanR Cert.KernelIdeal.Fold.normIdx
  rw [h0, h1, h2, h3, h4, h5, h6, h7, h8, h9, h10, h11]
  rfl

end Cert.Bridge

end
-- ==== Proof.lean ====
/-
  The bipartite graph layer: four message tables (entity and relation embeddings, forward and backward) are each biased by
  a vector and clamped below at zero; a message is a row of such a table taken at an edge's endpoint; each vertex
  collects the mean of the messages along its edges. The kernel biases and clamps each whole table once (four launches of
  one pointwise kernel over row blocks) and then takes the rows; the reference takes the rows and biases and clamps them
  edge by edge. Both then aggregate in the same way.

  Claims. The two word-level and idealized kernel programs run to the end without a fault and leave their arguments as
  launched (the generated frames over the four regions and the host stretches between them); so does the reference (its
  generated run). The idealization rewrote nothing. Over the extended reals both programs end with the same array: the
  kernel's result buffer is read off its last boundary (KernelRun, KernelFold: each region's output is its table biased and
  clamped, Region0 … Region3), the reference's off its run, and the two agree because biasing and clamping commute with
  taking rows (LibGatherRows, Bridge). The precondition is not used: no step needs a finite entry.
-/
import proofs.«152420_j37014028157513_1_alg».proof.Defs
import proofs.«152420_j37014028157513_1_alg».proof.Proof.Gen.Kernel
import proofs.«152420_j37014028157513_1_alg».proof.Proof.Gen.Kernel.Frame
import proofs.«152420_j37014028157513_1_alg».proof.Proof.Gen.KernelIdeal
import proofs.«152420_j37014028157513_1_alg».proof.Proof.Gen.KernelIdeal.Frame
import proofs.«152420_j37014028157513_1_alg».proof.Proof.Gen.ReferenceIdeal
import proofs.«152420_j37014028157513_1_alg».proof.Proof.Gen.ReferenceIdeal.Run
import proofs.«152420_j37014028157513_1_alg».proof.Proof.Gen.Pre_finite_inputs
import proofs.«152420_j37014028157513_1_alg».proof.Proof.KernelRun
import proofs.«152420_j37014028157513_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation: there is nothing to preserve. -/
theorem preserves : Cert.preserves_Kernel_KernelIdeal := trivial

/-- Both idealized programs end, from memories agreeing on the arguments, with the kernel's result buffer's contents
    after its last boundary. -/
theorem algebraic : Cert.algebraic_KernelIdeal_ReferenceIdeal := by
  intro m ρ m' ρ' _ hagree
  refine ⟨fun c => Cert.KernelIdeal.Gen.W9 m ρ c (Proc.devRef .tc Cert.KernelIdeal.main_v86),
    Cert.KernelIdeal.Named.run_named (F := Ideal) m ρ, ?_⟩
  exact (θ_run Cert.ReferenceIdeal.defs _ _).mono
    (fun _ h c => ⟨(h c).1.trans (Cert.Bridge.result_agrees m ρ m' c (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
